-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x1024 : Shape := ⟨2, ![512, 1024]⟩
abbrev S2x160000 : Shape := ⟨2, ![2, 160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S10000x512 .f32) (main_arg1 : FVec F S512x1024 .f32) (main_arg2 : IVec S2x160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S10000x512 : Shape := ⟨2, ![10000, 512]⟩
abbrev S512x1024 : Shape := ⟨2, ![512, 1024]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x1024 : Shape := ⟨2, ![10000, 1024]⟩
abbrev S1024x512 : Shape := ⟨2, ![1024, 512]⟩
abbrev S1000x1024 : Shape := ⟨2, ![1000, 1024]⟩
abbrev S1000x512 : Shape := ⟨2, ![1000, 512]⟩

abbrev nBuf : Space → Nat
  | .hbm => 37
  | .vmem => 5
  | .smem => 0
  | _ => 0

abbrev bufTy : (tb : Table) → Fin (tcTables nBuf tb) → BufTy
  | .hbm, ⟨0, _⟩ => ⟨S10000x512, .f32⟩
  | .hbm, ⟨1, _⟩ => ⟨S512x1024, .f32⟩
  | .hbm, ⟨2, _⟩ => ⟨S2x160000, .i32⟩
  | .hbm, ⟨3, _⟩ => ⟨S1x160000, .i32⟩
  | .hbm, ⟨4, _⟩ => ⟨S160000, .i32⟩
  | .hbm, ⟨5, _⟩ => ⟨S1x160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S_, .f32⟩
  | .hbm, ⟨21, _⟩ => ⟨S160000, .f32⟩
  | .hbm, ⟨22, _⟩ => ⟨S_, .f32⟩
  | .hbm, ⟨23, _⟩ => ⟨S10000, .f32⟩
  | .hbm, ⟨24, _⟩ => ⟨S160000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x512, .f32⟩
  | .hbm, ⟨31, _⟩ => ⟨S10000x512, .f32⟩
  | .hbm, ⟨32, _⟩ => ⟨S10000x1024, .f32⟩
  | .hbm, ⟨33, _⟩ => ⟨S1024x512, .f32⟩
  | .hbm, ⟨34, _⟩ => ⟨S10000x1024, .bf16⟩
  | .hbm, ⟨35, _⟩ => ⟨S1024x512, .bf16⟩
  | .hbm, ⟨36, _⟩ => ⟨S10000x512, .f32⟩
  | .local _ .vmem, ⟨0, _⟩ => ⟨S1000x1024, .bf16⟩
  | .local _ .vmem, ⟨1, _⟩ => ⟨S1000x1024, .bf16⟩
  | .local _ .vmem, ⟨2, _⟩ => ⟨S1024x512, .bf16⟩
  | .local _ .vmem, ⟨3, _⟩ => ⟨S1000x512, .f32⟩
  | .local _ .vmem, ⟨4, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  transposes_S512x1024_S1024x512_1_0 : S512x1024.Transposes [1, 0] S1024x512
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1000x512_S1000x512_0_0 : ∀ a, (![0, 0] : Fin 2 → Nat) a + S1000x512.size a ≤ S1000x512.size a
  h_S1000x512 : 0 < S1000x512.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x1024_S1024x512_S1000x512_1_0_0_1_n_n_wf : DotDims.WF S1000x1024 S1024x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S10000x1024.size a
  hwx0_0 : ∀ i : grid0.Coords, EltTy.bits .bf16 = 32 ∨ (Rect.block (s := S10000x1024) S1000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf

abbrev win0_0 : Pipeline.Window sig grid0 :=
  Pipeline.Window.ofSpec (Memref.whole main_v25) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x1024 : Shape := ⟨2, ![512, 1024]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x1024 : Shape := ⟨2, ![10000, 1024]⟩

abbrev nBuf : Space → Nat
  | .hbm => 37
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x1024, .f32⟩
  | .hbm, ⟨2, _⟩ => ⟨S2x160000, .i32⟩
  | .hbm, ⟨3, _⟩ => ⟨S1x160000, .i32⟩
  | .hbm, ⟨4, _⟩ => ⟨S160000, .i32⟩
  | .hbm, ⟨5, _⟩ => ⟨S1x160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S_, .f32⟩
  | .hbm, ⟨21, _⟩ => ⟨S160000, .f32⟩
  | .hbm, ⟨22, _⟩ => ⟨S_, .f32⟩
  | .hbm, ⟨23, _⟩ => ⟨S10000, .f32⟩
  | .hbm, ⟨24, _⟩ => ⟨S160000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x512, .f32⟩
  | .hbm, ⟨31, _⟩ => ⟨S10000x512, .f32⟩
  | .hbm, ⟨32, _⟩ => ⟨S10000x1024, .f32⟩
  | .hbm, ⟨33, _⟩ => ⟨S10000x512, .f32⟩
  | .hbm, ⟨34, _⟩ => ⟨S_, .f32⟩
  | .hbm, ⟨35, _⟩ => ⟨S10000x512, .f32⟩
  | .hbm, ⟨36, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x1024_S512x1024_S10000x512_1_1_0_0_n_n_wf : DotDims.WF S10000x1024 S512x1024 S10000x512 [1] [1] [0] [0] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x1024_S512x1024_S10000x512_1_1_0_0_n_n : DotDims S10000x1024 S512x1024 S10000x512 where
  lhsContracting := [1]
  rhsContracting := [1]
  lhsNonContracting := [0]
  rhsNonContracting := [0]
  lhsBatch := []
  rhsBatch := []
  wf := dot_S10000x1024_S512x1024_S10000x512_1_1_0_0_n_n_wf

class Facts : Prop extends Facts₀ where

variable [Facts]
-- ==== Proof.ReluLinear.lean ====
/-
  The layer both programs end with, on the extended reals. Given a message matrix `A` (one row per node,
  1024 features a row) and a weight matrix `W` (one row per output feature, 1024 entries a row), entry
  `(n, o)` of the result is

      max (∑ k, A[n, k] · W[o, k]) 0,

  a linear map followed by a rectifier. The zero is kept as the float word both programs write, so it is
  never evaluated. The same function is stated a second time over the weights held transposed,
  `B[k, o] = W[o, k]`, which is how a row-by-column product reads them; the two statements are one function
  because a transposed matrix read at `(k, o)` is the matrix read at `(o, k)`. No law of the extended reals
  beyond that re-indexing is used: the products appear in the same order, over the same index set.
-/
import Idealize.ShloMosaic.PureOps.Ideal.Laws
import Idealize.ShloMosaic.Lib.ValueIdx
import Idealize.ShloMosaic.Lib.ValueLayout

noncomputable section

namespace Cert.ReluLinear

open Idealize.ShloMosaic Idealize.ShloMosaic.ValueIdx

/-- Messages: 10000 nodes, 1024 features each. -/
abbrev SMsg : Shape := ⟨2, ![10000, 1024]⟩
/-- Weights: 512 output features, 1024 inputs each. -/
abbrev SWgt : Shape := ⟨2, ![512, 1024]⟩
/-- The weights transposed: 1024 inputs by 512 output features. -/
abbrev SWgtT : Shape := ⟨2, ![1024, 512]⟩
/-- The result: 10000 nodes, 512 output features each. -/
abbrev SOut : Shape := ⟨2, ![10000, 512]⟩

/-- The rectified linear layer, weights row by row: entry `(n, o)` is `max (∑ k, A[n,k] · W[o,k]) 0`. -/
def reluLinear (A : SMsg.Idx → EReal) (W : SWgt.Idx → EReal) : SOut.Idx → EReal :=
  fun i => max (∑ k : Fin 1024, A (ix2 (i 0) k) * W (ix2 (i 1) k)) (Ideal.ofBits .f32 0x00000000#32)

/-- The same layer over transposed weights: entry `(n, o)` is `max (∑ k, A[n,k] · B[k,o]) 0`. -/
def reluMatmul (A : SMsg.Idx → EReal) (B : SWgtT.Idx → EReal) : SOut.Idx → EReal :=
  fun i => max (∑ k : Fin 1024, A (ix2 (i 0) k) * B (ix2 k (i 1))) (Ideal.ofBits .f32 0x00000000#32)

/-- Transposing the weights and multiplying row by column is the row-by-row layer: `Wᵀ[k,o] = W[o,k]`, term by term
    of the sum. -/
theorem reluMatmul_transpose (A : SMsg.Idx → EReal) (W : SWgt.Idx → EReal) (h : SWgt.Transposes [1, 0] SWgtT) :
    reluMatmul A (transpose SWgtT [1, 0] W h) = reluLinear A W := by
  funext i
  unfold reluMatmul reluLinear
  refine congrArg (max · _) (Finset.sum_congr rfl fun k _ => ?_)
  exact congrArg (A (ix2 (i 0) k) * ·) (transpose_ix2_apply (a := 512) (b := 1024) W h k (i 1))

end Cert.ReluLinear

end
-- ==== Proof.RefLayer.lean ====
/-
  The reference's result is the rectified linear layer of its message matrix and the weights. The reference
  builds the message matrix on the host, contracts its feature axis with the weights' second axis, and takes
  the maximum with a zero array. On the extended reals the contraction at entry `(n, o)` is
  `∑ k, message[n,k] · W[o,k]`, and the maximum is taken entry by entry, so the result is `reluLinear` of
  the message matrix and the weights. How the message matrix itself is computed plays no part.
-/
import proofs.«148456_j62569083568400_1_alg».proof.Proof.Gen.ReferenceIdeal.Read
import proofs.«148456_j62569083568400_1_alg».proof.Proof.ReluLinear

noncomputable section

namespace Cert.ReferenceIdeal.RefLayer

open Cert.ReferenceIdeal Cert.ReferenceIdeal.Gen Cert.ReferenceIdeal.Read
open Idealize.ShloMosaic Idealize.ShloMosaic.ValueIdx Cert.ReluLinear

/-- The contraction reads the message matrix in the result's row, at the contracted feature. -/
theorem lidx_eq (i : S10000x512.Idx) (k : Fin 1024) : lidx_main_v24 i k = ix2 (i 0) k :=
  funext fun a => Fin.ext (by match a with | ⟨0, _⟩ => rfl | ⟨1, _⟩ => rfl)
/-- It reads the weights in the row of the result's column, at the contracted feature. -/
theorem ridx_eq (i : S10000x512.Idx) (k : Fin 1024) : ridx_main_v24 i k = ix2 (i 1) k :=
  funext fun a => Fin.ext (by match a with | ⟨0, _⟩ => rfl | ⟨1, _⟩ => rfl)

/-- The reference's result, as a function of its three arguments, is the rectified linear layer of its message
    matrix and the weights. -/
theorem result_eq (x0 : (⟨S10000x512, .f32⟩ : BufTy).Contents (Elt Ideal)) (x1 : (⟨S512x1024, .f32⟩ : BufTy).Contents (Elt Ideal))
    (x2 : (⟨S2x160000, .i32⟩ : BufTy).Contents (Elt Ideal)) :
    val_main_v25 (F := Ideal) x0 x1 x2 = reluLinear (val_main_v23 (F := Ideal) x0 x2) x1 := by
  funext i
  rw [val_main_v25_apply, val_main_v24_apply, val_main_call0_v0_apply, val_main_call0_cst_apply]
  simp only [lidx_eq, ridx_eq]
  rfl

end Cert.ReferenceIdeal.RefLayer

end
-- ==== Proof.BlockProduct.lean ====
/-
  One block of the kernel's work, read entry by entry. The body takes a block `x0` of 1000 message rows
  (1024 features each) and the whole transposed weight matrix `x1` (1024 by 512), multiplies them into a
  zero accumulator and rectifies. On the extended reals a matrix product into zero is, at entry `(p, q)`, the
  sum over the contracted axis of the products of row `p` of the left factor with column `q` of the right;
  so the block holds `max (∑ k, x0[p,k] · x1[k,q]) 0` at `(p, q)`.
-/
import proofs.«148456_j62569083568400_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-! ## Which entries of its factors the product reads

The product contracts axis 1 of the left factor with axis 0 of the right one; the left factor's axis 0 and the
right factor's axis 1 are the result's two axes. -/

/-- The left factor is read in the result's row. -/
theorem lhs_row (i : S1000x512.Idx) (q : dot_S1000x1024_S1024x512_S1000x512_1_0_0_1_n_n.contr.Idx) :
    (dot_S1000x1024_S1024x512_S1000x512_1_0_0_1_n_n.lhsIdx i q 0).val = (i 0).val := by
  unfold DotDims.lhsIdx
  rw [dif_neg (show ¬(0 : Fin S1000x1024.rank) ∈ dot_S1000x1024_S1024x512_S1000x512_1_0_0_1_n_n.lhsBatch by decide), dif_pos (show (0 : Fin S1000x1024.rank) ∈ dot_S1000x1024_S1024x512_S1000x512_1_0_0_1_n_n.lhsNonContracting by decide)]
  rfl
/-- … at the contracted coordinate. -/
theorem lhs_contr (i : S1000x512.Idx) (q : dot_S1000x1024_S1024x512_S1000x512_1_0_0_1_n_n.contr.Idx) :
    (dot_S1000x1024_S1024x512_S1000x512_1_0_0_1_n_n.lhsIdx i q 1).val = (q ⟨0, by decide⟩).val :=
  dot_S1000x1024_S1024x512_S1000x512_1_0_0_1_n_n.lhsIdx_val_of_single rfl i q
/-- The right factor is read at the contracted coordinate … -/
theorem rhs_contr (i : S1000x512.Idx) (q : dot_S1000x1024_S1024x512_S1000x512_1_0_0_1_n_n.contr.Idx) :
    (dot_S1000x1024_S1024x512_S1000x512_1_0_0_1_n_n.rhsIdx i q 0).val = (q ⟨0, by decide⟩).val :=
  dot_S1000x1024_S1024x512_S1000x512_1_0_0_1_n_n.rhsIdx_val_of_single rfl i q
/-- … in the result's column. -/
theorem rhs_col (i : S1000x512.Idx) (q : dot_S1000x1024_S1024x512_S1000x512_1_0_0_1_n_n.contr.Idx) :
    (dot_S1000x1024_S1024x512_S1000x512_1_0_0_1_n_n.rhsIdx i q 1).val = (i 1).val := by
  unfold DotDims.rhsIdx
  rw [dif_neg (show ¬(1 : Fin S1024x512.rank) ∈ dot_S1000x1024_S1024x512_S1000x512_1_0_0_1_n_n.rhsBatch by decide), dif_pos (show (1 : Fin S1024x512.rank) ∈ dot_S1000x1024_S1024x512_S1000x512_1_0_0_1_n_n.rhsNonContracting by decide)]
  rfl

/-! ## The block at an entry -/

/-- Entry `(p, q)` of the block the body stores: the rectified inner product of row `p` of the message block with
    column `q` of the transposed weights. -/
theorem pay_apply (x0 : FVec Ideal S1000x1024 .bf16) (x1 : FVec Ideal S1024x512 .bf16) (p : Fin 1000) (q : Fin 512) :
    k0_pay1 (F := Ideal) x0 x1 (ix2 p q)
      = max (∑ k : Fin 1024, x0 (ix2 p k) * x1 (ix2 k q)) (Ideal.ofBits .f32 0x00000000#32) := by
  unfold k0_pay1
  rw [shapeCast_self, shapeCast_self]
  show max (FloatOps.matmul dot_S1000x1024_S1024x512_S1000x512_1_0_0_1_n_n none x0 x1 (constant S1000x512 .f32 0x00000000#32) (ix2 p q))
      (Ideal.ofBits .f32 0x00000000#32) = _
  rw [Ideal.matmul_constant_zero_apply, ← Equiv.sum_comp (contrEquiv1 dot_S1000x1024_S1024x512_S1000x512_1_0_0_1_n_n 1024 rfl rfl).symm]
  refine congrArg (max · _) (Finset.sum_congr rfl fun k _ => ?_)
  have hk := contrEquiv1_symm_val dot_S1000x1024_S1024x512_S1000x512_1_0_0_1_n_n 1024 rfl rfl k
  have el : dot_S1000x1024_S1024x512_S1000x512_1_0_0_1_n_n.lhsIdx (ix2 p q) ((contrEquiv1 dot_S1000x1024_S1024x512_S1000x512_1_0_0_1_n_n 1024 rfl rfl).symm k) = ix2 p k := funext fun a => Fin.ext (by
    match a with
    | ⟨0, _⟩ => exact lhs_row _ _
    | ⟨1, _⟩ => exact (lhs_contr _ _).trans hk)
  have er : dot_S1000x1024_S1024x512_S1000x512_1_0_0_1_n_n.rhsIdx (ix2 p q) ((contrEquiv1 dot_S1000x1024_S1024x512_S1000x512_1_0_0_1_n_n 1024 rfl rfl).symm k) = ix2 k q := funext fun a => Fin.ext (by
    match a with
    | ⟨0, _⟩ => exact (rhs_contr _ _).trans hk
    | ⟨1, _⟩ => exact rhs_col _ _)
  rw [el, er]

end Cert.KernelIdeal.BlockProduct

end
-- ==== Proof.RegionEntry.lean ====
/-
  What the kernel's region finds in its two input arrays. Before the region the host builds the message
  matrix (each node's features beside the mean of its in-neighbours' features), transposes the weights, and
  narrows both to a sixteen-bit float format. On the extended reals a change of float format is the identity,
  so the left input array holds the message matrix itself and the right one the transposed weights. The host
  operations that build the message matrix are, one for one, those of the reference; the matrix is named here
  by the reference's own stage for it and is never opened.
-/
import proofs.«148456_j62569083568400_1_alg».proof.Proof.Gen.KernelIdeal.Frame
import proofs.«148456_j62569083568400_1_alg».proof.Proof.Gen.ReferenceIdeal.Read
import Idealize.ShloMosaic.Lib.StableHlo.Run

noncomputable section

namespace Cert.KernelIdeal.RegionEntry

open Cert.KernelIdeal Cert.KernelIdeal.Gen Cert.KernelIdeal.Facts₀
open Idealize.ShloMosaic Idealize.ShloMosaic.TcCoe Idealize.SL.Sem Idealize.ShloMosaic.StableHlo

variable (m : (ℓ : Loc nD τ sig) → Buf (Elt Ideal) ℓ)

set_option maxHeartbeats 2000000 in
/-- The left input array at region entry is the message matrix of the first and third arguments. -/
theorem messages_entry (c : Dev nD) :
    (V m c main_v25 : S10000x1024.Idx → EReal)
      = Cert.ReferenceIdeal.Read.val_main_v23 (F := Ideal) (m ((c : Thread nD τ).loc main_arg0)) (m ((c : Thread nD τ).loc main_arg2)) := by
  dsimp only [V, hostOps0]
  after_results_simp
  rfl

set_option maxHeartbeats 2000000 in
/-- The right input array at region entry is the second argument transposed. -/
theorem weights_entry (c : Dev nD) :
    (V m c main_v26 : S1024x512.Idx → EReal)
      = transpose S1024x512 [1, 0] (m ((c : Thread nD τ).loc main_arg1)) Facts₀.transposes_S512x1024_S1024x512_1_0 := by
  dsimp only [V, hostOps0]
  after_results_simp
  rfl

end Cert.KernelIdeal.RegionEntry

end
-- ==== Proof.LayerValue.lean ====
/-
  The kernel's result array is the rectified linear layer of the message matrix and the weights. The grid has
  ten points; point `t` takes rows `1000·t … 1000·t + 999` of the message matrix and the whole transposed
  weight matrix, and writes rows `1000·t … 1000·t + 999` of the result. Entry `(p, q)` of what it writes is
  `max (∑ k, block[p,k] · Bᵀ[k,q]) 0`, and row `p` of the block is row `1000·t + p` of the message matrix, so
  point `t` writes block `t` of one whole-array function. The ten blocks tile the result (row `r` lies in
  block `r / 1000`), so the array ends equal to that function; read with the weights transposed back it is the
  layer of the specification.
-/
import proofs.«148456_j62569083568400_1_alg».proof.Proof.Gen.KernelIdeal.Value
import proofs.«148456_j62569083568400_1_alg».proof.Proof.BlockProduct
import proofs.«148456_j62569083568400_1_alg».proof.Proof.RegionEntry
import proofs.«148456_j62569083568400_1_alg».proof.Proof.ReluLinear

noncomputable section

namespace Cert.KernelIdeal.LayerValue

open Cert.KernelIdeal Cert.KernelIdeal.Gen Idealize.ShloMosaic Idealize.ShloMosaic.TcCoe Idealize.SL.Sem
open Idealize.ShloMosaic.Pipeline (Dat)
open Idealize.ShloMosaic.ValueIdx Cert.ReluLinear

variable (m : (ℓ : Loc nD τ sig) → Buf (Elt Ideal) ℓ) (ρ : Dev nD → PrngReg)

/-- The message matrix as the region finds it. -/
abbrev msgs (c : Dev nD) : FVec Ideal S10000x1024 .bf16 := V m c main_v25
/-- The transposed weights as the region finds them. -/
abbrev wgtT (c : Dev nD) : FVec Ideal S1024x512 .bf16 := V m c main_v26

theorem origin : (![0, 0] : Fin 2 → Nat) = fun _ => 0 := funext fun a => by fin_cases a <;> rfl

/-- Where each window's block sits at point `t`: the message block and the result block at block row `t`, the
    weights always at the origin. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the layer of the two arrays the region finds. -/
theorem flushed_eq (c : Dev nD) (t : Fin cfg0.N) :
    (dats m 0 c).flushed 2 t = ((cfg0.win 2).blk t).view.read (Elt Ideal) (reluMatmul (msgs m c) (wgtT m c)) := by
  rw [Value.flushed2]
  unfold out0_2
  rw [View.canon_unit_zero origin]
  simp only [View.ld_unit_zero (S := S1000x1024) origin, View.ld_unit_zero (S := S1024x512) origin]
  obtain ⟨e0, e1, e2, e3, e4, e5⟩ := block_rows t
  funext j
  obtain ⟨p, q, rfl⟩ : ∃ (p : Fin 1000) (q : Fin 512), j = ix2 p q := ⟨j 0, j 1, eq_ix2 j⟩
  show k0_pay1 (F := Ideal) (iblk m c 0 t) (iblk m c 1 t) (ix2 p q)
    = reluMatmul (msgs m c) (wgtT m c) (((cfg0.win 2).blk t).view.emb (ix2 p q))
  refine (BlockProduct.pay_apply (iblk m c 0 t) (iblk m c 1 t) p q).trans ?_
  unfold reluMatmul
  refine congrArg (max · _) (Finset.sum_congr rfl fun k _ => ?_)
  have hl : iblk m c 0 t (ix2 p k) = msgs m c (ix2 ((((cfg0.win 2).blk t).view.emb (ix2 p q)) 0) k) := by
    show V m c main_v25 (((cfg0.win 0).blk t).view.emb (ix2 p k)) = V m c main_v25 (ix2 ((((cfg0.win 2).blk t).view.emb (ix2 p q)) 0) k)
    refine congrArg _ (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 1024 + 1 * k.val = k.val; omega
  have hr : iblk m c 1 t (ix2 k q) = wgtT m c (ix2 k ((((cfg0.win 2).blk t).view.emb (ix2 p q)) 1)) := by
    show V m c main_v26 (((cfg0.win 1).blk t).view.emb (ix2 k q)) = V m c main_v26 (ix2 k ((((cfg0.win 2).blk t).view.emb (ix2 p q)) 1))
    refine congrArg _ (funext fun a => Fin.ext ?_)
    match a with
    | ⟨0, _⟩ => show win0_1.index t (0 : Fin 2) * 1024 + 1 * k.val = k.val; omega
    | ⟨1, _⟩ => show win0_1.index t (1 : Fin 2) * 512 + 1 * q.val = win0_2.index t (1 : Fin 2) * 512 + 1 * q.val; omega
  rw [hl, hr]

/-- An entry of the result lies in point `t`'s block iff each coordinate is in the block's range on its axis. -/
theorem mem_blk (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v27).slice (win0_2.rect t)).set ↔ _
  rw [View.set_slice_whole, Rect.mem_set_unit]
  exact Iff.rfl

/-- Every entry of the result is written by some point: row `r` by point `r / 1000`. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 10 := N_0
  have ht : (i 0).val / 1000 < cfg0.N := lt_of_lt_of_eq (by omega) hN.symm
  refine ⟨⟨(i 0).val / 1000, ht⟩, flush0_2 _, ?_⟩
  rw [mem_blk]
  obtain ⟨-, -, -, -, e4, e5⟩ := block_rows ⟨(i 0).val / 1000, ht⟩
  have e4' : win0_2.index ⟨(i 0).val / 1000, ht⟩ (0 : Fin 2) = (i 0).val / 1000 := e4
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    omega
  | ⟨1, _⟩ =>
    show win0_2.index ⟨(i 0).val / 1000, ht⟩ (1 : Fin 2) * 512 ≤ (i 1).val ∧ (i 1).val < win0_2.index ⟨(i 0).val / 1000, ht⟩ (1 : Fin 2) * 512 + 512
    omega

/-- The result array after the run is the layer of the two arrays the region finds. -/
theorem final_blocks (c : Dev nD) : (dats m 0 c).arrAt 2 cfg0.N = reluMatmul (msgs m c) (wgtT m c) :=
  (dats m 0 c).arrAt_eq_of_cover 2 (reluMatmul (msgs m c) (wgtT m c)) (fun t _ => flushed_eq m c t) cover

/-- … and so the rectified linear layer of the message matrix of the first and third arguments and the second
    argument: the left array is that message matrix, the right one the second argument transposed. -/
theorem final (c : Dev nD) : (dats m 0 c).arrAt 2 cfg0.N
    = reluLinear (Cert.ReferenceIdeal.Read.val_main_v23 (F := Ideal) (m ((c : Thread nD τ).loc main_arg0)) (m ((c : Thread nD τ).loc main_arg2)))
        (m ((c : Thread nD τ).loc main_arg1)) :=
  (final_blocks m c).trans
    ((congrArg₂ reluMatmul (RegionEntry.messages_entry m c) (RegionEntry.weights_entry m c)).trans
      (reluMatmul_transpose _ _ _))

/-- The kernel's run with its result array named: the layer of the arguments, the arguments unchanged. -/
theorem run : θ_run defs (onTc (τ := τ) (main (F := Ideal))) ⟨m, fun _ => 0, ρ⟩ fun r => ∀ c : Dev nD,
      r.2.mem ((c : Thread nD τ).loc main_v27)
        = reluLinear (Cert.ReferenceIdeal.Read.val_main_v23 (F := Ideal) (m ((c : Thread nD τ).loc main_arg0)) (m ((c : Thread nD τ).loc main_arg2)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LayerValue

end
-- ==== Proof.lean ====
/-
  A graph layer: every node's features are set beside the mean of its in-neighbours' features (the message
  matrix), the messages go through a linear map, and the result is rectified. The kernel builds the message
  matrix on the host exactly as the reference does, then multiplies it block by block (1000 rows at a time)
  with the transposed weights and rectifies; the reference contracts the message matrix with the weights in
  one step and rectifies.

  On the extended reals both end with entry `(n, o)` at `max (∑ k, message[n,k] · W[o,k]) 0`: narrowing to a
  sixteen-bit format is the identity, a matrix product into zero is the plain sum of products, a transposed
  matrix read at `(k, o)` is the matrix at `(o, k)`, and the ten row blocks tile the result. The products
  appear in the same order over the same index set on both sides, so no law that needs finite values is used,
  and the message matrix is never opened: both sides name it by the same function of the arguments.

  The three frames: the two kernel programs' are the generated frame proofs; the reference has no kernel, and
  its frame is its run with the result dropped. The idealization rewrote nothing, so there is nothing to
  preserve.
-/
import proofs.«148456_j62569083568400_1_alg».proof.Defs
import proofs.«148456_j62569083568400_1_alg».proof.Proof.Gen.Kernel
import proofs.«148456_j62569083568400_1_alg».proof.Proof.Gen.Kernel.Frame
import proofs.«148456_j62569083568400_1_alg».proof.Proof.Gen.KernelIdeal
import proofs.«148456_j62569083568400_1_alg».proof.Proof.Gen.KernelIdeal.Frame
import proofs.«148456_j62569083568400_1_alg».proof.Proof.Gen.KernelIdeal.Value
import proofs.«148456_j62569083568400_1_alg».proof.Proof.Gen.ReferenceIdeal
import proofs.«148456_j62569083568400_1_alg».proof.Proof.Gen.ReferenceIdeal.Run
import proofs.«148456_j62569083568400_1_alg».proof.Proof.Gen.ReferenceIdeal.Read
import proofs.«148456_j62569083568400_1_alg».proof.Proof.Gen.Pre_finite_inputs
import proofs.«148456_j62569083568400_1_alg».proof.Proof.ReluLinear
import proofs.«148456_j62569083568400_1_alg».proof.Proof.RefLayer
import proofs.«148456_j62569083568400_1_alg».proof.Proof.LayerValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the rectified linear
    layer of the message matrix of the first and third arguments and the second argument. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v25_eq _ _ _).trans (Cert.ReferenceIdeal.RefLayer.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
